-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S1024x64x128 : Shape := ⟨3, ![1024, 64, 128]⟩
abbrev S128x128 : Shape := ⟨2, ![128, 128]⟩
abbrev S_ : Shape := ⟨0, ![]⟩

class Facts : Prop where
  bcast_S_S1024x64x128 : S_.BroadcastsInDim S1024x64x128 (![] : Fin 0 → Fin S1024x64x128.rank)
  reducesTo_S1024x64x128_S_d0_1_2 : S1024x64x128.ReducesTo [0, 1, 2] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn {F : FTy → Type} [FloatOps F] (main_arg0 : FVec F S1024x64x128 .f32) (main_arg1 : FVec F S128x128 .f32) : IVec S_ 1 :=
  let main_v0 : FVec F S1024x64x128 .f32 := Host.absf main_arg0
  let main_cst : FVec F S_ .f32 := constant S_ .f32 0x7F800000#32
  let main_v1 : FVec F S1024x64x128 .f32 := broadcastInDim S1024x64x128 ![] bcast_S_S1024x64x128 main_cst
  let main_v2 : IVec S1024x64x128 1 := cmpf .olt main_v0 main_v1
  let main_c : IVec S_ 1 := constantI S_ 1 1#1
  let main_v3 : IVec S_ 1 := (fun x v => Host.reduce IntOp.andi x v reducesTo_S1024x64x128_S_d0_1_2 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  main_v8
-- ==== Kernel.lean ====
abbrev S1024x64x128 : Shape := ⟨3, ![1024, 64, 128]⟩
abbrev S128x128 : Shape := ⟨2, ![128, 128]⟩
abbrev S64x64x1024 : Shape := ⟨3, ![64, 64, 1024]⟩
abbrev S128x64x128 : Shape := ⟨3, ![128, 64, 128]⟩
abbrev S64x64x128 : Shape := ⟨3, ![64, 64, 128]⟩
abbrev S8192x128 : Shape := ⟨2, ![8192, 128]⟩
abbrev S128x64x64 : Shape := ⟨3, ![128, 64, 64]⟩
abbrev S128x64 : Shape := ⟨2, ![128, 64]⟩
abbrev S128x64x1 : Shape := ⟨3, ![128, 64, 1]⟩
abbrev S128x1x64 : Shape := ⟨3, ![128, 1, 64]⟩
abbrev S128x4096 : Shape := ⟨2, ![128, 4096]⟩
abbrev S4096x128 : Shape := ⟨2, ![4096, 128]⟩
abbrev S1024x64x64 : Shape := ⟨3, ![1024, 64, 64]⟩

abbrev nBuf : Space → Nat
  | .hbm => 4
  | .vmem => 5
  | .smem => 0
  | _ => 0

abbrev bufTy : (tb : Table) → Fin (tcTables nBuf tb) → BufTy
  | .hbm, ⟨0, _⟩ => ⟨S1024x64x128, .f32⟩
  | .hbm, ⟨1, _⟩ => ⟨S128x128, .f32⟩
  | .hbm, ⟨2, _⟩ => ⟨S64x64x1024, .f32⟩
  | .hbm, ⟨3, _⟩ => ⟨S1024x64x64, .f32⟩
  | .local _ .vmem, ⟨0, _⟩ => ⟨S128x64x128, .f32⟩
  | .local _ .vmem, ⟨1, _⟩ => ⟨S128x64x128, .f32⟩
  | .local _ .vmem, ⟨2, _⟩ => ⟨S128x128, .f32⟩
  | .local _ .vmem, ⟨3, _⟩ => ⟨S64x64x128, .f32⟩
  | .local _ .vmem, ⟨4, _⟩ => ⟨S64x64x128, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

abbrev stage0_0 : Fin 2 → Memref sig .tc .vmem S128x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S64x64x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  inb_S128x64x128_S128x64x128_0_0_0 : ∀ a, (![0, 0, 0] : Fin 3 → Nat) a + S128x64x128.size a ≤ S128x64x128.size a
  h_S128x64x128 : 0 < S128x64x128.numel
  inb_S128x128_S128x128_0_0 : ∀ a, (![0, 0] : Fin 2 → Nat) a + S128x128.size a ≤ S128x128.size a
  h_S128x128 : 0 < S128x128.numel
  shapeCasts_S128x64x128_S8192x128 : S128x64x128.ShapeCasts S8192x128
  shapeCasts_S8192x128_S128x64x128 : S8192x128.ShapeCasts S128x64x128
  reduces_S128x64x128_S128x64 : S128x64x128.Reduces [2] S128x64
  shapeCasts_S128x64_S128x64x1 : S128x64.ShapeCasts S128x64x1
  shapeCasts_S128x64_S128x1x64 : S128x64.ShapeCasts S128x1x64
  broadcasts_S128x64x1_S128x64x64 : S128x64x1.Broadcasts S128x64x64
  broadcasts_S128x1x64_S128x64x64 : S128x1x64.Broadcasts S128x64x64
  shapeCasts_S128x64x64_S128x4096 : S128x64x64.ShapeCasts S128x4096
  transposes_S128x4096_p1_0_S4096x128 : S128x4096.Transposes [1, 0] S4096x128
  shapeCasts_S4096x128_S64x64x128 : S4096x128.ShapeCasts S64x64x128
  inb_S64x64x128_S64x64x128_0_0_0 : ∀ a, (![0, 0, 0] : Fin 3 → Nat) a + S64x64x128.size a ≤ S64x64x128.size a
  h_S64x64x128 : 0 < S64x64x128.numel
  transposes_S64x64x1024_S1024x64x64_2_0_1 : S64x64x1024.Transposes [2, 0, 1] S1024x64x64
  dot_S8192x128_S128x128_S8192x128_1_0_0_1_n_n_wf : DotDims.WF S8192x128 S128x128 S8192x128 [1] [0] [0] [1] [] []
  dot_S128x64x128_S128x64x128_S128x64x64_2_2_1_1_0_0_wf : DotDims.WF S128x64x128 S128x64x128 S128x64x64 [2] [2] [1] [1] [0] [0]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S128x64x128.size a ≤ S1024x64x128.size a
  hwx0_0 : ∀ i : grid0.Coords, EltTy.bits .f32 = 32 ∨ (Rect.block (s := S1024x64x128) S128x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S64x64x128.size a ≤ S64x64x1024.size a
  hwx0_2 : ∀ i : grid0.Coords, EltTy.bits .f32 = 32 ∨ (Rect.block (s := S64x64x1024) S64x64x128.size (cc0_transform_2 i) (hinb0_2 i)).WholeWords (EltTy.packing .f32)

variable [Facts₀]

def dot_S8192x128_S128x128_S8192x128_1_0_0_1_n_n : DotDims S8192x128 S128x128 S8192x128 where
  lhsContracting := [1]
  rhsContracting := [0]
  lhsNonContracting := [0]
  rhsNonContracting := [1]
  lhsBatch := []
  rhsBatch := []
  wf := dot_S8192x128_S128x128_S8192x128_1_0_0_1_n_n_wf
def dot_S128x64x128_S128x64x128_S128x64x64_2_2_1_1_0_0 : DotDims S128x64x128 S128x64x128 S128x64x64 where
  lhsContracting := [2]
  rhsContracting := [2]
  lhsNonContracting := [1]
  rhsNonContracting := [1]
  lhsBatch := [0]
  rhsBatch := [0]
  wf := dot_S128x64x128_S128x64x128_S128x64x64_2_2_1_1_0_0_wf

abbrev win0_0 : Pipeline.Window sig grid0 :=
  Pipeline.Window.ofSpec (Memref.whole main_arg0) S128x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S64x64x128.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S1024x64x128 : Shape := ⟨3, ![1024, 64, 128]⟩
abbrev S128x128 : Shape := ⟨2, ![128, 128]⟩
abbrev S_ : Shape := ⟨0, ![]⟩
abbrev S1026x64x128 : Shape := ⟨3, ![1026, 64, 128]⟩
abbrev S342x1x12288 : Shape := ⟨3, ![342, 1, 12288]⟩
abbrev S3x64x128 : Shape := ⟨3, ![3, 64, 128]⟩
abbrev S1x1x12288 : Shape := ⟨3, ![1, 1, 12288]⟩
abbrev S192x128 : Shape := ⟨2, ![192, 128]⟩
abbrev S3x64x1x128 : Shape := ⟨4, ![3, 64, 1, 128]⟩
abbrev S3x1x64x128 : Shape := ⟨4, ![3, 1, 64, 128]⟩
abbrev S3x64x64x128 : Shape := ⟨4, ![3, 64, 64, 128]⟩
abbrev S3x64x64 : Shape := ⟨3, ![3, 64, 64]⟩
abbrev S1026x64x64 : Shape := ⟨3, ![1026, 64, 64]⟩
abbrev S1024x64x64 : Shape := ⟨3, ![1024, 64, 64]⟩

abbrev nBuf : Space → Nat
  | .hbm => 8
  | .vmem => 5
  | .smem => 0
  | _ => 0

abbrev bufTy : (tb : Table) → Fin (tcTables nBuf tb) → BufTy
  | .hbm, ⟨0, _⟩ => ⟨S1024x64x128, .f32⟩
  | .hbm, ⟨1, _⟩ => ⟨S128x128, .f32⟩
  | .hbm, ⟨2, _⟩ => ⟨S_, .i32⟩
  | .hbm, ⟨3, _⟩ => ⟨S_, .f32⟩
  | .hbm, ⟨4, _⟩ => ⟨S1026x64x128, .f32⟩
  | .hbm, ⟨5, _⟩ => ⟨S342x1x12288, .f32⟩
  | .hbm, ⟨6, _⟩ => ⟨S1026x64x64, .f32⟩
  | .hbm, ⟨7, _⟩ => ⟨S1024x64x64, .f32⟩
  | .local _ .vmem, ⟨0, _⟩ => ⟨S3x64x128, .f32⟩
  | .local _ .vmem, ⟨1, _⟩ => ⟨S3x64x128, .f32⟩
  | .local _ .vmem, ⟨2, _⟩ => ⟨S128x128, .f32⟩
  | .local _ .vmem, ⟨3, _⟩ => ⟨S1x1x12288, .f32⟩
  | .local _ .vmem, ⟨4, _⟩ => ⟨S1x1x12288, .f32⟩
  | _, _ => ⟨S1024x64x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_c : Ref sig .tc := ⟨.hbm, 2, rfl⟩
abbrev main_call0_v0 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![342], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S3x64x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x12288 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  pads_S1024x64x128_S1026x64x128_020_000_000 : S1024x64x128.Pads (![0, 0, 0] : Fin 3 → Nat) ![2, 0, 0] ![0, 0, 0] S1026x64x128
  h_S_ : 0 < S_.numel
  inb_S3x64x128_S3x64x128_0_0_0 : ∀ a, (![0, 0, 0] : Fin 3 → Nat) a + S3x64x128.size a ≤ S3x64x128.size a
  h_S3x64x128 : 0 < S3x64x128.numel
  shapeCasts_S3x64x128_S3x64x128 : S3x64x128.ShapeCasts S3x64x128
  inb_S128x128_S128x128_0_0 : ∀ a, (![0, 0] : Fin 2 → Nat) a + S128x128.size a ≤ S128x128.size a
  h_S128x128 : 0 < S128x128.numel
  shapeCasts_S3x64x128_S192x128 : S3x64x128.ShapeCasts S192x128
  shapeCasts_S192x128_S3x64x128 : S192x128.ShapeCasts S3x64x128
  shapeCasts_S3x64x128_S3x64x1x128 : S3x64x128.ShapeCasts S3x64x1x128
  shapeCasts_S3x64x128_S3x1x64x128 : S3x64x128.ShapeCasts S3x1x64x128
  broadcasts_S3x64x1x128_S3x64x64x128 : S3x64x1x128.Broadcasts S3x64x64x128
  broadcasts_S3x1x64x128_S3x64x64x128 : S3x1x64x128.Broadcasts S3x64x64x128
  reduces_S3x64x64x128_S3x64x64 : S3x64x64x128.Reduces [3] S3x64x64
  shapeCasts_S3x64x64_S1x1x12288 : S3x64x64.ShapeCasts S1x1x12288
  inb_S1x1x12288_S1x1x12288_0_0_0 : ∀ a, (![0, 0, 0] : Fin 3 → Nat) a + S1x1x12288.size a ≤ S1x1x12288.size a
  h_S1x1x12288 : 0 < S1x1x12288.numel
  shapeCasts_S342x1x12288_S1026x64x64 : S342x1x12288.ShapeCasts S1026x64x64
  slices_S1026x64x64_S1024x64x64_0_0_0 : S1026x64x64.Slices ![0, 0, 0] S1024x64x64
  dot_S192x128_S128x128_S192x128_1_0_0_1_n_n_wf : DotDims.WF S192x128 S128x128 S192x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S3x64x128.size a ≤ S1026x64x128.size a
  hwx0_0 : ∀ i : grid0.Coords, EltTy.bits .f32 = 32 ∨ (Rect.block (s := S1026x64x128) S3x64x128.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S128x128.size a ≤ S128x128.size a
  hwx0_1 : ∀ i : grid0.Coords, EltTy.bits .f32 = 32 ∨ (Rect.block (s := S128x128) S128x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1x12288.size a ≤ S342x1x12288.size a
  hwx0_2 : ∀ i : grid0.Coords, EltTy.bits .f32 = 32 ∨ (Rect.block (s := S342x1x12288) S1x1x12288.size (cc0_transform_2 i) (hinb0_2 i)).WholeWords (EltTy.packing .f32)

variable [Facts₀]

def dot_S192x128_S128x128_S192x128_1_0_0_1_n_n : DotDims S192x128 S128x128 S192x128 where
  lhsContracting := [1]
  rhsContracting := [0]
  lhsNonContracting := [0]
  rhsNonContracting := [1]
  lhsBatch := []
  rhsBatch := []
  wf := dot_S192x128_S128x128_S192x128_1_0_0_1_n_n_wf

abbrev win0_0 : Pipeline.Window sig grid0 :=
  Pipeline.Window.ofSpec (Memref.whole main_v0) S3x64x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S128x128.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x1x12288.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== Proof.Spec.lean ====
/-
  The mathematics both programs compute, stated once, over the extended reals.

  A sentence is 64 tokens of 128 features. Each feature is log-normalised, x ↦ log (|x| + 1); a token's 128
  embedding coordinates are the logistic of its normalised features against the columns of the weights. The result
  is, per sentence, the 64 × 64 matrix of Euclidean distances between its tokens' embeddings.

  The two programs differ only in how a distance is written. One sums the squared coordinate differences,
  Σ (a r - b r)²; the other expands the square through the Gram matrix, (Σ a r² + Σ b r²) - 2 · Σ a r · b r, and
  clamps the result at zero before the square root. A logistic is a REAL number on every extended real (0 at -∞,
  1 at +∞), so the embeddings are real whatever the inputs are; over the reals the expansion is an identity and the
  expanded form is a sum of squares, hence not negative, so the clamp changes nothing.
-/
import Idealize.ShloMosaic.PureOps.Ideal
import Idealize.ShloMosaic.PureOps.Ideal.Laws
import Idealize.ShloMosaic.Lib.ValueIdx

noncomputable section

open scoped BigOperators

namespace Cert.TokenDist

open Idealize.ShloMosaic Idealize.ShloMosaic.ValueIdx

/-- A feature, log-normalised: log (|x| + 1). -/
def lognorm (x : EReal) : EReal :=
  FloatOps.log (F := Ideal) (φ := .f32) (FloatOps.absf (F := Ideal) (φ := .f32) x + Ideal.ofBits .f32 0x3F800000#32)

/-- Coordinate `r` of the embedding of token `i` of sentence `b`: the logistic of the token's normalised features
    against column `r` of the weights. Stated for any number `n` of sentences. -/
def tok {n : Nat} (X : (⟨3, ![n, 64, 128]⟩ : Shape).Idx → EReal) (W : (⟨2, ![128, 128]⟩ : Shape).Idx → EReal)
    (b : Fin n) (i : Fin 64) (r : Fin 128) : EReal :=
  Ideal.logistic (∑ l : Fin 128, lognorm (X (ix3 b i l)) * W (ix2 l r))

/-- The distance of two embeddings through the Gram matrix: the two squared norms less twice the inner product,
    clamped at zero, under the square root. -/
def gramDist (a b : Fin 128 → EReal) : EReal :=
  FloatOps.sqrt (F := Ideal) (φ := .f32)
    (max (((∑ r : Fin 128, a r * a r) + (∑ r : Fin 128, b r * b r))
        - Ideal.ofBits .f32 0x40000000#32 * (∑ r : Fin 128, a r * b r)) (Ideal.ofBits .f32 0x00000000#32))

/-- The distance of two embeddings as the root of the summed squared differences. -/
def diffDist (a b : Fin 128 → EReal) : EReal :=
  FloatOps.sqrt (F := Ideal) (φ := .f32) (∑ r : Fin 128, (a r - b r) * (a r - b r))

/-- A logistic is a real number at every extended real. -/
theorem logistic_real (x : EReal) : ∃ y : ℝ, Ideal.logistic x = (y : EReal) := by
  induction x using EReal.rec with
  | bot => exact ⟨0, by rw [Ideal.logistic_bot, EReal.coe_zero]⟩
  | coe r => exact ⟨_, Ideal.logistic_coe r⟩
  | top => exact ⟨1, by rw [Ideal.logistic_top, EReal.coe_one]⟩

/-- So every embedding coordinate is real. -/
theorem tok_real {n : Nat} (X : (⟨3, ![n, 64, 128]⟩ : Shape).Idx → EReal) (W : (⟨2, ![128, 128]⟩ : Shape).Idx → EReal)
    (b : Fin n) (i : Fin 64) (r : Fin 128) : ∃ y : ℝ, tok X W b i r = (y : EReal) :=
  logistic_real _

/-- A finite sum of reals, summed among the extended reals, is the real sum. -/
theorem coe_sum {ι : Type} (s : Finset ι) (f : ι → ℝ) : (∑ r ∈ s, ((f r : ℝ) : EReal)) = ((∑ r ∈ s, f r : ℝ) : EReal) := by
  classical
  induction s using Finset.induction_on with
  | empty => simp
  | insert a s ha ih => rw [Finset.sum_insert ha, Finset.sum_insert ha, ih, EReal.coe_add]

/-- The word 0x40000000 is the number two. -/
theorem ofBits_two : Ideal.ofBits .f32 0x40000000#32 = ((2 : ℝ) : EReal) := by
  simp [Ideal.ofBits, Ideal.ieee, -EReal.coe_mul]; norm_num

/-- THE LAW: on real embeddings the Gram form of the distance is the difference form. Over the reals
    Σ a² + Σ b² - 2 Σ a b = Σ (a - b)², a sum of squares, so the clamp at zero is the identity. -/
theorem gramDist_eq_diffDist (a b : Fin 128 → EReal) (ha : ∀ r, ∃ y : ℝ, a r = (y : EReal)) (hb : ∀ r, ∃ y : ℝ, b r = (y : EReal)) :
    gramDist a b = diffDist a b := by
  choose a' ha' using ha
  choose b' hb' using hb
  obtain rfl : a = fun r => ((a' r : ℝ) : EReal) := funext ha'
  obtain rfl : b = fun r => ((b' r : ℝ) : EReal) := funext hb'
  unfold gramDist diffDist
  congr 1
  simp only [← EReal.coe_mul, ← EReal.coe_sub, coe_sum, ofBits_two, Ideal.ofBits_zero_f32]
  rw [← EReal.coe_add, ← EReal.coe_sub]
  have hid : (∑ r : Fin 128, a' r * a' r) + (∑ r : Fin 128, b' r * b' r) - 2 * (∑ r : Fin 128, a' r * b' r)
      = ∑ r : Fin 128, (a' r - b' r) * (a' r - b' r) := by
    rw [Finset.mul_sum, ← Finset.sum_add_distrib, ← Finset.sum_sub_distrib]
    exact Finset.sum_congr rfl fun r _ => by ring
  rw [hid]
  exact max_eq_left (EReal.coe_nonneg.mpr (Finset.sum_nonneg fun r _ => mul_self_nonneg _))

/-- The whole result through the Gram form: entry (b, i, j) is the distance of tokens i and j of sentence b. -/
def gramResult (X : (⟨3, ![1024, 64, 128]⟩ : Shape).Idx → EReal) (W : (⟨2, ![128, 128]⟩ : Shape).Idx → EReal) :
    (⟨3, ![1024, 64, 64]⟩ : Shape).Idx → EReal :=
  fun idx => gramDist (tok X W (idx 0) (idx 1)) (tok X W (idx 0) (idx 2))

/-- The whole result through the difference form. -/
def diffResult (X : (⟨3, ![1024, 64, 128]⟩ : Shape).Idx → EReal) (W : (⟨2, ![128, 128]⟩ : Shape).Idx → EReal) :
    (⟨3, ![1024, 64, 64]⟩ : Shape).Idx → EReal :=
  fun idx => diffDist (tok X W (idx 0) (idx 1)) (tok X W (idx 0) (idx 2))

/-- The two results are one array: the law at every entry, the embeddings being real. -/
theorem gramResult_eq_diffResult (X : (⟨3, ![1024, 64, 128]⟩ : Shape).Idx → EReal) (W : (⟨2, ![128, 128]⟩ : Shape).Idx → EReal) :
    gramResult X W = diffResult X W :=
  funext fun idx => gramDist_eq_diffDist _ _ (fun r => tok_real X W (idx 0) (idx 1) r) (fun r => tok_real X W (idx 0) (idx 2) r)

end Cert.TokenDist

end
-- ==== Proof.KPay.lean ====
/-
  The Gram-form kernel's block, read at an index. The kernel loads a block of 128 sentences and the weights, and
  stores a [64, 64, 128] block whose entry (i, j, b) is the Gram-form distance of tokens i and j of the block's
  sentence b: the batch axis is moved last by a flattening, a transposition and an unflattening.
-/
import proofs.«164402_g2000303751998475_pallasbulk_1269_17_alg».proof.Proof.Gen.KernelIdeal.Skeleton
import proofs.«164402_g2000303751998475_pallasbulk_1269_17_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

open scoped BigOperators

namespace Cert.KernelIdeal.DistPayload

open Idealize.ShloMosaic Idealize.ShloMosaic.ValueIdx
open Cert.KernelIdeal Cert.KernelIdeal.Gen Cert.TokenDist

/-! ## The body's arithmetic, cut in four -/

/-- The features, log-normalised. -/
def lognormB (x0 : FVec Ideal S128x64x128 .f32) : FVec Ideal S128x64x128 .f32 :=
  log (addf (absf x0) (broadcast S128x64x128 (Scalar.ofBits (F := Ideal) .f32 0x3F800000#32)))

/-- The embeddings of the block's 128 · 64 tokens: the normalised features, as 8192 rows, times the weights, through
    the logistic, as [128, 64, 128] again. -/
def embed (x0 : FVec Ideal S128x64x128 .f32) (x1 : FVec Ideal S128x128 .f32) : FVec Ideal S128x64x128 .f32 :=
  shapeCast S128x64x128 (logistic (matmul dot_S8192x128_S128x128_S8192x128_1_0_0_1_n_n none
    (shapeCast S8192x128 (lognormB x0) shapeCasts_S128x64x128_S8192x128) x1 (constant (F := Ideal) S8192x128 .f32 0x00000000#32)))
    shapeCasts_S8192x128_S128x64x128

/-- Per sentence, the Gram matrix of its tokens' embeddings. -/
def gramB (p : FVec Ideal S128x64x128 .f32) : FVec Ideal S128x64x64 .f32 :=
  matmul dot_S128x64x128_S128x64x128_S128x64x64_2_2_1_1_0_0 (some .fp32) p p (constant (F := Ideal) S128x64x64 .f32 0x00000000#32)

/-- Per token, the squared norm of its embedding. -/
def normB (p : FVec Ideal S128x64x128 .f32) : FVec Ideal S128x64 .f32 :=
  multiReduction .add [2] S128x64 (mulf p p) 0x00000000#32 reduces_S128x64x128_S128x64 (.inl rfl) rfl

/-- Per sentence, the distances: the norms laid along rows and along columns, less twice the Gram matrix, clamped,
    under the root. -/
def distB (p : FVec Ideal S128x64x128 .f32) : FVec Ideal S128x64x64 .f32 :=
  sqrt (maximumf
    (subf
      (addf (broadcastTo S128x64x64 (shapeCast S128x64x1 (normB p) shapeCasts_S128x64_S128x64x1) broadcasts_S128x64x1_S128x64x64)
        (broadcastTo S128x64x64 (shapeCast S128x1x64 (normB p) shapeCasts_S128x64_S128x1x64) broadcasts_S128x1x64_S128x64x64))
      (mulf (broadcast S128x64x64 (Scalar.ofBits (F := Ideal) .f32 0x40000000#32)) (gramB p)))
    (broadcast S128x64x64 (Scalar.ofBits (F := Ideal) .f32 0x00000000#32)))

/-- The sentence axis moved last: [128, 64, 64] flattened to [128, 4096], transposed, unflattened to [64, 64, 128]. -/
def relayout (d : FVec Ideal S128x64x64 .f32) : FVec Ideal S64x64x128 .f32 :=
  shapeCast S64x64x128 (transpose S4096x128 [1, 0] (shapeCast S128x4096 d shapeCasts_S128x64x64_S128x4096)
    transposes_S128x4096_p1_0_S4096x128) shapeCasts_S4096x128_S64x64x128

/-- The body's stored value is these four, composed. -/
theorem pay_eq (x0 : FVec Ideal S128x64x128 .f32) (x1 : FVec Ideal S128x128 .f32) :
    k0_pay1 (F := Ideal) x0 x1 = relayout (distB (embed x0 x1)) := rfl

/-! ## Each piece at an index -/

/-- A pair of token numbers as one position among 4096. -/
def pairPos (i j : Fin 64) : Fin 4096 := ⟨i.val * 64 + j.val, by have := i.isLt; have := j.isLt; omega⟩

/-- A sentence and a token of a block as one row among 8192. -/
def rowPos (b : Fin 128) (i : Fin 64) : Fin 8192 := ⟨b.val * 64 + i.val, by have := b.isLt; have := i.isLt; omega⟩

/-- The relayout reads entry (i, j, b) at (b, i, j): the three steps keep the row-major position, swap the two
    coordinates, and keep the row-major position. -/
theorem relayout_apply (d : FVec Ideal S128x64x64 .f32) (i j : Fin 64) (b : Fin 128) :
    relayout d (ix3 i j b) = d (ix3 b i j) := by
  unfold relayout
  refine (shapeCast_apply _ _ (ix3 i j b) (ix2 (pairPos i j) b) ?_).trans ?_
  · rw [Shape.rowMajor_val_two, Shape.rowMajor_val_three]; rfl
  refine (transpose_apply _ _ _ (ix2 (pairPos i j) b) (ix2 b (pairPos i j)) ?_).trans ?_
  · intro a
    match a with
    | ⟨0, _⟩ => rfl
    | ⟨1, _⟩ => rfl
  refine shapeCast_apply _ _ (ix2 b (pairPos i j)) (ix3 b i j) ?_
  rw [Shape.rowMajor_val_two, Shape.rowMajor_val_three]
  show (b.val * 64 + i.val) * 64 + j.val = b.val * 4096 + (i.val * 64 + j.val)
  omega

theorem normB_apply (p : FVec Ideal S128x64x128 .f32) (b : Fin 128) (i : Fin 64) :
    normB p (ix2 b i) = ∑ r : Fin 128, p (ix3 b i r) * p (ix3 b i r) := by
  unfold normB
  refine (Ideal.multiReduction_add_single (mulf p p) 0x00000000#32 reduces_S128x64x128_S128x64 (.inl rfl) rfl (ix2 b i)).trans ?_
  refine Finset.sum_congr rfl fun r _ => ?_
  have hl : reduces_S128x64x128_S128x64.lift (ix2 b i) r = ix3 b i r := by
    funext a; apply Fin.ext
    match a with
    | ⟨0, _⟩ => rfl
    | ⟨1, _⟩ => rfl
    | ⟨2, _⟩ => rfl
  show p (reduces_S128x64x128_S128x64.lift (ix2 b i) r) * p (reduces_S128x64x128_S128x64.lift (ix2 b i) r) = _
  rw [hl]
  rfl

theorem gramB_apply (p : FVec Ideal S128x64x128 .f32) (b : Fin 128) (i j : Fin 64) :
    gramB p (ix3 b i j) = ∑ r : Fin 128, p (ix3 b i r) * p (ix3 b j r) := by
  unfold gramB
  refine (Ideal.matmul_constant_zero_apply dot_S128x64x128_S128x64x128_S128x64x64_2_2_1_1_0_0 (some .fp32) p p (ix3 b i j)).trans ?_
  rw [← Equiv.sum_comp (contrEquiv1 dot_S128x64x128_S128x64x128_S128x64x64_2_2_1_1_0_0 128 rfl rfl).symm]
  refine Finset.sum_congr rfl fun r _ => ?_
  have c := contrEquiv1_symm_val dot_S128x64x128_S128x64x128_S128x64x64_2_2_1_1_0_0 128 rfl rfl r
  have hl : dot_S128x64x128_S128x64x128_S128x64x64_2_2_1_1_0_0.lhsIdx (ix3 b i j) ((contrEquiv1 dot_S128x64x128_S128x64x128_S128x64x64_2_2_1_1_0_0 128 rfl rfl).symm r) = ix3 b i r := by
    funext ax; apply Fin.ext
    match ax with
    | ⟨0, _⟩ => simp [DotDims.lhsIdx, dot_S128x64x128_S128x64x128_S128x64x64_2_2_1_1_0_0]; rfl
    | ⟨1, _⟩ => simp [DotDims.lhsIdx, dot_S128x64x128_S128x64x128_S128x64x64_2_2_1_1_0_0]; rfl
    | ⟨2, _⟩ => simp [DotDims.lhsIdx, dot_S128x64x128_S128x64x128_S128x64x64_2_2_1_1_0_0]; exact c
  have hr : dot_S128x64x128_S128x64x128_S128x64x64_2_2_1_1_0_0.rhsIdx (ix3 b i j) ((contrEquiv1 dot_S128x64x128_S128x64x128_S128x64x64_2_2_1_1_0_0 128 rfl rfl).symm r) = ix3 b j r := by
    funext ax; apply Fin.ext
    match ax with
    | ⟨0, _⟩ => simp [DotDims.rhsIdx, dot_S128x64x128_S128x64x128_S128x64x64_2_2_1_1_0_0]; rfl
    | ⟨1, _⟩ => simp [DotDims.rhsIdx, dot_S128x64x128_S128x64x128_S128x64x64_2_2_1_1_0_0]; rfl
    | ⟨2, _⟩ => simp [DotDims.rhsIdx, dot_S128x64x128_S128x64x128_S128x64x64_2_2_1_1_0_0]; exact c
  rw [hl, hr]

theorem distB_apply (p : FVec Ideal S128x64x128 .f32) (b : Fin 128) (i j : Fin 64) :
    distB p (ix3 b i j) = gramDist (fun r => p (ix3 b i r)) (fun r => p (ix3 b j r)) := by
  have hrow : broadcastTo S128x64x64 (shapeCast S128x64x1 (normB p) shapeCasts_S128x64_S128x64x1) broadcasts_S128x64x1_S128x64x64 (ix3 b i j)
      = normB p (ix2 b i) := by
    refine (broadcastTo_apply _ _ (ix3 b i j) (ix3 b i (0 : Fin 1)) ?_).trans ?_
    · intro a
      match a with
      | ⟨0, _⟩ => rfl
      | ⟨1, _⟩ => rfl
      | ⟨2, _⟩ => rfl
    refine shapeCast_apply _ _ (ix3 b i (0 : Fin 1)) (ix2 b i) ?_
    rw [Shape.rowMajor_val_two, Shape.rowMajor_val_three]
    show b.val * 64 + i.val = (b.val * 64 + i.val) * 1 + 0
    omega
  have hcol : broadcastTo S128x64x64 (shapeCast S128x1x64 (normB p) shapeCasts_S128x64_S128x1x64) broadcasts_S128x1x64_S128x64x64 (ix3 b i j)
      = normB p (ix2 b j) := by
    refine (broadcastTo_apply _ _ (ix3 b i j) (ix3 b (0 : Fin 1) j) ?_).trans ?_
    · intro a
      match a with
      | ⟨0, _⟩ => rfl
      | ⟨1, _⟩ => rfl
      | ⟨2, _⟩ => rfl
    refine shapeCast_apply _ _ (ix3 b (0 : Fin 1) j) (ix2 b j) ?_
    rw [Shape.rowMajor_val_two, Shape.rowMajor_val_three]
    show b.val * 64 + j.val = (b.val * 1 + 0) * 64 + j.val
    omega
  unfold distB gramDist
  simp only [sqrt, maximumf, subf, addf, mulf, broadcast]
  rw [hrow, hcol, gramB_apply, normB_apply, normB_apply]
  rfl

theorem embed_apply (x0 : FVec Ideal S128x64x128 .f32) (x1 : FVec Ideal S128x128 .f32) (b : Fin 128) (i : Fin 64) (r : Fin 128) :
    embed x0 x1 (ix3 b i r) = tok x0 x1 b i r := by
  unfold embed tok
  refine (shapeCast_apply _ _ (ix3 b i r) (ix2 (rowPos b i) r) ?_).trans ?_
  · rw [Shape.rowMajor_val_two, Shape.rowMajor_val_three]; rfl
  refine congrArg Ideal.logistic ?_
  refine (Ideal.matmul_constant_zero_apply dot_S8192x128_S128x128_S8192x128_1_0_0_1_n_n none _ x1 (ix2 (rowPos b i) r)).trans ?_
  rw [← Equiv.sum_comp (contrEquiv1 dot_S8192x128_S128x128_S8192x128_1_0_0_1_n_n 128 rfl rfl).symm]
  refine Finset.sum_congr rfl fun l _ => ?_
  have c := contrEquiv1_symm_val dot_S8192x128_S128x128_S8192x128_1_0_0_1_n_n 128 rfl rfl l
  have hl : dot_S8192x128_S128x128_S8192x128_1_0_0_1_n_n.lhsIdx (ix2 (rowPos b i) r) ((contrEquiv1 dot_S8192x128_S128x128_S8192x128_1_0_0_1_n_n 128 rfl rfl).symm l) = ix2 (rowPos b i) l := by
    funext ax; apply Fin.ext
    match ax with
    | ⟨0, _⟩ => simp [DotDims.lhsIdx, dot_S8192x128_S128x128_S8192x128_1_0_0_1_n_n]; rfl
    | ⟨1, _⟩ => simp [DotDims.lhsIdx, dot_S8192x128_S128x128_S8192x128_1_0_0_1_n_n]; exact c
  have hr : dot_S8192x128_S128x128_S8192x128_1_0_0_1_n_n.rhsIdx (ix2 (rowPos b i) r) ((contrEquiv1 dot_S8192x128_S128x128_S8192x128_1_0_0_1_n_n 128 rfl rfl).symm l) = ix2 l r := by
    funext ax; apply Fin.ext
    match ax with
    | ⟨0, _⟩ => simp [DotDims.rhsIdx, dot_S8192x128_S128x128_S8192x128_1_0_0_1_n_n]; exact c
    | ⟨1, _⟩ => simp [DotDims.rhsIdx, dot_S8192x128_S128x128_S8192x128_1_0_0_1_n_n]; rfl
  rw [hl, hr]
  refine congrArg (· * x1 (ix2 l r)) ?_
  refine (shapeCast_apply _ _ (ix2 (rowPos b i) l) (ix3 b i l) ?_).trans rfl
  rw [Shape.rowMajor_val_two, Shape.rowMajor_val_three]; rfl

/-- THE BLOCK: entry (i, j, b) is the Gram-form distance of tokens i and j of the block's sentence b. -/
theorem pay_apply (x0 : FVec Ideal S128x64x128 .f32) (x1 : FVec Ideal S128x128 .f32) (i j : Fin 64) (b : Fin 128) :
    k0_pay1 (F := Ideal) x0 x1 (ix3 i j b) = gramDist (tok x0 x1 b i) (tok x0 x1 b j) := by
  rw [pay_eq, relayout_apply, distB_apply]
  exact congrArg₂ gramDist (funext fun r => embed_apply x0 x1 b i r) (funext fun r => embed_apply x0 x1 b j r)

end Cert.KernelIdeal.DistPayload

end
-- ==== Proof.KVal.lean ====
/-
  What the program with the Gram-form kernel leaves in its result: entry (b, i, j) is the Gram-form distance of
  tokens i and j of sentence b.

  The launch runs over 8 points. Point t reads sentences 128 t … 128 t + 127 and the whole weights, and writes the
  block of the [64, 64, 1024] array whose last coordinate runs over those same sentences: entry (i, j, 128 t + b)
  is the distance of tokens i and j of sentence 128 t + b. The 8 blocks tile the array, and the transposition that
  follows the launch moves the sentence axis first.
-/
import proofs.«164402_g2000303751998475_pallasbulk_1269_17_alg».proof.Proof.Gen.KernelIdeal.Frame
import proofs.«164402_g2000303751998475_pallasbulk_1269_17_alg».proof.Proof.Spec
import proofs.«164402_g2000303751998475_pallasbulk_1269_17_alg».proof.Proof.KPay
import Idealize.ShloMosaic.Lib.Pipeline.Value
import Idealize.ShloMosaic.Lib.StableHlo.Run
import Idealize.ShloMosaic.Lib.ValueIdx

set_option maxRecDepth 16384

noncomputable section

open scoped BigOperators

namespace Cert.KernelIdeal.DistValue

open Idealize.ShloMosaic Idealize.ShloMosaic.TcCoe Idealize.ShloMosaic.ValueIdx Idealize.SL.Sem
open Cert.KernelIdeal Cert.KernelIdeal.Gen Cert.TokenDist

variable (m : (ℓ : Loc nD τ sig) → Buf (Elt Ideal) ℓ) (ρ : Dev nD → PrngReg)

/-- The launch's own array: entry (i, j, b) is the distance of tokens i and j of sentence b. -/
def arr (X : S1024x64x128.Idx → EReal) (W : S128x128.Idx → EReal) : S64x64x1024.Idx → EReal :=
  fun y => gramDist (tok X W (y 2) (y 0)) (tok X W (y 2) (y 1))

/-- A token's embedding depends only on the token's own features and on the weights: two arrays of sentences that
    agree on one token's features give it one embedding. -/
theorem tok_congr {n n' : Nat} (X : (⟨3, ![n, 64, 128]⟩ : Shape).Idx → EReal) (X' : (⟨3, ![n', 64, 128]⟩ : Shape).Idx → EReal)
    (W W' : (⟨2, ![128, 128]⟩ : Shape).Idx → EReal) (b : Fin n) (b' : Fin n') (i : Fin 64)
    (hX : ∀ l : Fin 128, X (ix3 b i l) = X' (ix3 b' i l)) (hW : ∀ (l r : Fin 128), W (ix2 l r) = W' (ix2 l r)) :
    tok X W b i = tok X' W' b' i := by
  funext r
  unfold tok
  exact congrArg Ideal.logistic (Finset.sum_congr rfl fun l _ => by rw [hX l, hW l r])

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices at point t: the sentences' window and the result's window move with t along the sentence axis,
    the weights' window stays. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = 0 ∧ win0_2.index t (1 : Fin 3) = 0 ∧ win0_2.index t (2 : Fin 3) = t.val :=
  (by decide +kernel : ∀ t : Fin grid0.N, _)

theorem lt8 (t : Fin cfg0.N) : t.val < 8 := by
  have h : t.val < cfg0.N := t.isLt
  have hN : cfg0.N = 8 := N_0
  omega

/-- Sentence b of point t's block is sentence 128 t + b of the array. -/
def sent (t : Fin cfg0.N) (b : Fin 128) : Fin 1024 := ⟨t.val * 128 + b.val, by have := lt8 t; have := b.isLt; omega⟩

/-- WHAT POINT t WRITES BACK is block t of `arr` of the arrays as the launch finds them. -/
theorem flushed_eq (c : Dev nD) (t : Fin cfg0.N) :
    (dats m 0 c).flushed 2 t = ((cfg0.win 2).blk t).view.read (Elt Ideal) (arr (V m c main_arg0) (V m c main_arg1)) := by
  show (cfg0.win 2).cut (grid0.coords t) ((dats m 0 c).after 2 t) = _
  rw [after0_2]
  unfold out0_2
  rw [View.canon_unit_zero hz3]
  simp only [View.ld_unit_zero (S := S128x64x128) hz3, View.ld_unit_zero (S := S128x128) hz2]
  obtain ⟨e00, e01, e02, e10, e11, e20, e21, e22⟩ := idx_facts t
  funext y
  obtain ⟨i, j, b, rfl⟩ : ∃ (i : Fin 64) (j : Fin 64) (b : Fin 128), y = ix3 i j b := ⟨y 0, y 1, y 2, eq_ix3 y⟩
  show k0_pay1 (F := Ideal) (iblk m c 0 t) (iblk m c 1 t) (ix3 i j b)
    = arr (V m c main_arg0) (V m c main_arg1) (((cfg0.win 2).blk t).view.emb (ix3 i j b))
  refine (DistPayload.pay_apply (iblk m c 0 t) (iblk m c 1 t) i j b).trans ?_
  have hemb : ((cfg0.win 2).blk t).view.emb (ix3 i j b) = ix3 i j (sent t b) := by
    funext a; apply Fin.ext
    match a with
    | ⟨0, _⟩ => show win0_2.index t (0 : Fin 3) * 64 + 1 * i.val = i.val; omega
    | ⟨1, _⟩ => show win0_2.index t (1 : Fin 3) * 64 + 1 * j.val = j.val; omega
    | ⟨2, _⟩ => show win0_2.index t (2 : Fin 3) * 128 + 1 * b.val = t.val * 128 + b.val; omega
  rw [hemb]
  show gramDist _ _ = gramDist (tok (V m c main_arg0) (V m c main_arg1) (sent t b) i) (tok (V m c main_arg0) (V m c main_arg1) (sent t b) j)
  have hX : ∀ (i' : Fin 64) (l : Fin 128), iblk m c 0 t (ix3 b i' l) = V m c main_arg0 (ix3 (sent t b) i' l) := by
    intro i' l
    show V m c main_arg0 (((cfg0.win 0).blk t).view.emb (ix3 b i' l)) = V m c main_arg0 (ix3 (sent t b) i' l)
    refine congrArg (V m c main_arg0) ?_
    funext a; apply Fin.ext
    match a with
    | ⟨0, _⟩ => show win0_0.index t (0 : Fin 3) * 128 + 1 * b.val = t.val * 128 + b.val; omega
    | ⟨1, _⟩ => show win0_0.index t (1 : Fin 3) * 64 + 1 * i'.val = i'.val; omega
    | ⟨2, _⟩ => show win0_0.index t (2 : Fin 3) * 128 + 1 * l.val = l.val; omega
  have hW : ∀ (l r : Fin 128), iblk m c 1 t (ix2 l r) = V m c main_arg1 (ix2 l r) := by
    intro l r
    show V m c main_arg1 (((cfg0.win 1).blk t).view.emb (ix2 l r)) = V m c main_arg1 (ix2 l r)
    refine congrArg (V m c main_arg1) ?_
    funext a; apply Fin.ext
    match a with
    | ⟨0, _⟩ => show win0_1.index t (0 : Fin 2) * 128 + 1 * l.val = l.val; omega
    | ⟨1, _⟩ => show win0_1.index t (1 : Fin 2) * 128 + 1 * r.val = r.val; omega
  exact congrArg₂ gramDist (tok_congr _ _ _ _ b (sent t b) i (hX i) hW) (tok_congr _ _ _ _ b (sent t b) j (hX j) hW)

/-- An index of the array is in point t's block iff each coordinate is in the block's range on its axis. -/
theorem mem_blk (t : Fin cfg0.N) (y : S64x64x1024.Idx) :
    y ∈ ((cfg0.win 2).blk t).view.set ↔ ∀ a : Fin 3, win0_2.index t a * S64x64x128.size a ≤ (y a).val
      ∧ (y a).val < win0_2.index t a * S64x64x128.size a + S64x64x128.size a := by
  show y ∈ ((View.whole main_v0).slice (win0_2.rect t)).set ↔ _
  rw [View.set_slice_whole, Rect.mem_set_unit]
  exact Iff.rfl

/-- The 8 blocks cover the array: sentence s lies in the block of point s / 128. -/
theorem cover (y : S64x64x1024.Idx) : ∃ t : Fin cfg0.N, (cfg0.win 2).flush t = true ∧ y ∈ ((cfg0.win 2).blk t).view.set := by
  have h0 : (y 0).val < 64 := (y 0).isLt
  have h1 : (y 1).val < 64 := (y 1).isLt
  have h2 : (y 2).val < 1024 := (y 2).isLt
  let t : Fin cfg0.N := ⟨(y 2).val / 128, by have hN : cfg0.N = 8 := N_0; omega⟩
  obtain ⟨-, -, -, -, -, e20, e21, e22⟩ := idx_facts t
  have ht : t.val = (y 2).val / 128 := rfl
  refine ⟨t, flush0_2 t, ?_⟩
  rw [mem_blk]
  intro a
  match a with
  | ⟨0, _⟩ => show win0_2.index t (0 : Fin 3) * 64 ≤ (y 0).val ∧ (y 0).val < win0_2.index t (0 : Fin 3) * 64 + 64; omega
  | ⟨1, _⟩ => show win0_2.index t (1 : Fin 3) * 64 ≤ (y 1).val ∧ (y 1).val < win0_2.index t (1 : Fin 3) * 64 + 64; omega
  | ⟨2, _⟩ => show win0_2.index t (2 : Fin 3) * 128 ≤ (y 2).val ∧ (y 2).val < win0_2.index t (2 : Fin 3) * 128 + 128; omega

/-- THE ARRAY after the launch is `arr` of the arguments. -/
theorem final (c : Dev nD) : (dats m 0 c).arrAt 2 cfg0.N
    = arr (m ((c.tc : Thread nD τ).loc main_arg0)) (m ((c.tc : Thread nD τ).loc main_arg1)) :=
  (dats m 0 c).arrAt_eq_of_cover 2 (arr (V m c main_arg0) (V m c main_arg1)) (fun t _ => flushed_eq m c t) cover

/-- The transposition after the launch moves the sentence axis first. -/
theorem transpose_arr (X : S1024x64x128.Idx → EReal) (W : S128x128.Idx → EReal) :
    transpose S1024x64x64 [2, 0, 1] (arr X W) transposes_S64x64x1024_S1024x64x64_2_0_1 = gramResult X W := by
  funext idx
  obtain ⟨b, i, j, rfl⟩ : ∃ (b : Fin 1024) (i : Fin 64) (j : Fin 64), idx = ix3 b i j := ⟨idx 0, idx 1, idx 2, eq_ix3 idx⟩
  refine (transpose_apply _ _ _ (ix3 b i j) (ix3 i j b) ?_).trans rfl
  intro a
  match a with
  | ⟨0, _⟩ => rfl
  | ⟨1, _⟩ => rfl
  | ⟨2, _⟩ => rfl

/-- What the line after the launch leaves in the result. -/
theorem tail_eq (c : Dev nD) : Pipeline.afterTail₀ cfgs (dats m) 0 (V0 m) [hostOps1] c main_v1
    = gramResult (m ((c.tc : Thread nD τ).loc main_arg0)) (m ((c.tc : Thread nD τ).loc main_arg1)) := by
  unfold Pipeline.afterTail₀
  show StableHlo.after hostOps1 _ (Proc.devRef .tc main_v1) = _
  after_results
  rw [Pipeline.withArrays_arr spec0 launch0.win.arr_inj c _ _ 2, final]
  exact transpose_arr _ _

theorem run : θ_run (defs (F := Ideal)) (onTc (τ := τ) (main (F := Ideal))) ⟨m, fun _ => 0, ρ⟩ (fun r => ∀ c : Dev nD,
      r.2.mem ((c.tc : Thread nD τ).loc main_v1) = gramResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v1 (Pipeline.mem_restRefs_of main_v1 (by decide) (by decide))).trans (tail_eq m c),
      ((h c).1 0).trans (((dats m 0 c).arrAt_in 0 rfl _).trans ((A_eq m c 0).trans (V_main_arg0 m c))),
      ((h c).1 1).trans (((dats m 0 c).arrAt_in 1 rfl _).trans ((A_eq m c 1).trans (V_main_arg1 m c)))⟩)
    (run_main m ρ)

end Cert.KernelIdeal.DistValue

end
-- ==== Proof.RPay.lean ====
/-
  The arithmetic of the difference-form kernel at one place of its result: the place (b * 64 + i) * 64 + j of the flat
  block holds the distance, in the difference form, of the embeddings of tokens i and j of sentence b of the block.
-/
import proofs.«164402_g2000303751998475_pallasbulk_1269_17_alg».proof.Proof.Gen.ReferenceIdeal.Skeleton
import proofs.«164402_g2000303751998475_pallasbulk_1269_17_alg».proof.Proof.Spec
import Idealize.ShloMosaic.Lib.Pipeline.Value
import Idealize.ShloMosaic.Lib.ValueIdx
import Idealize.ShloMosaic.PureOps.Ideal.Laws

noncomputable section

open scoped BigOperators

namespace Cert.ReferenceIdeal.DistPayload

open Idealize.ShloMosaic Idealize.ShloMosaic.ValueIdx
open Cert.ReferenceIdeal Cert.ReferenceIdeal.Gen Cert.TokenDist

/-! ## The payload in two parts -/

/-- The embeddings of the block's 3 × 64 tokens: the features log-normalised, the 192 tokens as rows against the
    weights, the logistic of the products, the rows as 3 sentences of 64 tokens again. -/
def embed (x0 : FVec Ideal S3x64x128 .f32) (x1 : FVec Ideal S128x128 .f32) : FVec Ideal S3x64x128 .f32 :=
  shapeCast S3x64x128
    (logistic (matmul dot_S192x128_S128x128_S192x128_1_0_0_1_n_n none
      (shapeCast S192x128
        (log (addf (absf (shapeCast S3x64x128 x0 shapeCasts_S3x64x128_S3x64x128))
          (broadcast S3x64x128 (Scalar.ofBits .f32 0x3F800000#32))))
        shapeCasts_S3x64x128_S192x128)
      x1 (constant S192x128 .f32 0x00000000#32)))
    shapeCasts_S192x128_S3x64x128

/-- Token i's embedding along a new axis of tokens j. -/
def rowsOf (p : FVec Ideal S3x64x128 .f32) : FVec Ideal S3x64x64x128 .f32 :=
  broadcastTo S3x64x64x128 (shapeCast S3x64x1x128 p shapeCasts_S3x64x128_S3x64x1x128) broadcasts_S3x64x1x128_S3x64x64x128

/-- Token j's embedding along a new axis of tokens i. -/
def colsOf (p : FVec Ideal S3x64x128 .f32) : FVec Ideal S3x64x64x128 .f32 :=
  broadcastTo S3x64x64x128 (shapeCast S3x1x64x128 p shapeCasts_S3x64x128_S3x1x64x128) broadcasts_S3x1x64x128_S3x64x64x128

/-- From embeddings to the flat block of distances: the differences of every pair of tokens of a sentence, squared, summed
    over the coordinates, under the square root, laid out flat. -/
def dist (p : FVec Ideal S3x64x128 .f32) : FVec Ideal S1x1x12288 .f32 :=
  shapeCast S1x1x12288
    (sqrt (multiReduction .add [3] S3x64x64
      (mulf (subf (rowsOf p) (colsOf p)) (subf (rowsOf p) (colsOf p)))
      0x00000000#32 reduces_S3x64x64x128_S3x64x64 (.inl rfl) rfl))
    shapeCasts_S3x64x64_S1x1x12288

/-- The printed payload is the second part of the first. -/
theorem pay_eq (x0 : Vec Ideal S3x64x128 .f32) (x1 : Vec Ideal S128x128 .f32) :
    k0_pay1 (F := Ideal) x0 x1 = dist (embed x0 x1) := rfl

/-! ## The product's operand places

At the place (q, r) of the product and the position l of the contraction, the left operand is read at (q, l) and the right
one at (l, r). -/

theorem lhs_0 (j : S192x128.Idx) (k : dot_S192x128_S128x128_S192x128_1_0_0_1_n_n.contr.Idx) :
    (dot_S192x128_S128x128_S192x128_1_0_0_1_n_n.lhsIdx j k 0).val = (j 0).val := by
  unfold DotDims.lhsIdx
  rw [dif_neg (show ¬(0 : Fin S192x128.rank) ∈ dot_S192x128_S128x128_S192x128_1_0_0_1_n_n.lhsBatch by decide),
    dif_pos (show (0 : Fin S192x128.rank) ∈ dot_S192x128_S128x128_S192x128_1_0_0_1_n_n.lhsNonContracting by decide)]
  rfl

theorem lhs_1 (j : S192x128.Idx) (l : Fin 128) :
    (dot_S192x128_S128x128_S192x128_1_0_0_1_n_n.lhsIdx j ((contrEquiv1 dot_S192x128_S128x128_S192x128_1_0_0_1_n_n 128 rfl rfl).symm l) 1).val = l.val :=
  (dot_S192x128_S128x128_S192x128_1_0_0_1_n_n.lhsIdx_val_of_single (cl := 1) rfl j _).trans (contrEquiv1_symm_val _ _ _ _ l)

theorem rhs_0 (j : S192x128.Idx) (l : Fin 128) :
    (dot_S192x128_S128x128_S192x128_1_0_0_1_n_n.rhsIdx j ((contrEquiv1 dot_S192x128_S128x128_S192x128_1_0_0_1_n_n 128 rfl rfl).symm l) 0).val = l.val :=
  (dot_S192x128_S128x128_S192x128_1_0_0_1_n_n.rhsIdx_val_of_single (cr := 0) rfl j _).trans (contrEquiv1_symm_val _ _ _ _ l)

theorem rhs_1 (j : S192x128.Idx) (k : dot_S192x128_S128x128_S192x128_1_0_0_1_n_n.contr.Idx) :
    (dot_S192x128_S128x128_S192x128_1_0_0_1_n_n.rhsIdx j k 1).val = (j 1).val := by
  unfold DotDims.rhsIdx
  rw [dif_neg (show ¬(1 : Fin S128x128.rank) ∈ dot_S192x128_S128x128_S192x128_1_0_0_1_n_n.rhsBatch by decide),
    dif_pos (show (1 : Fin S128x128.rank) ∈ dot_S192x128_S128x128_S192x128_1_0_0_1_n_n.rhsNonContracting by decide)]
  rfl

/-! ## The embeddings at a place -/

/-- The block's embeddings are the tokens' embeddings: row b * 64 + i of the product is token i of sentence b, and the
    contraction runs over the 128 features. -/
theorem embed_apply (x0 : FVec Ideal S3x64x128 .f32) (x1 : FVec Ideal S128x128 .f32) (b : Fin 3) (i : Fin 64) (r : Fin 128) :
    embed x0 x1 (ix3 b i r) = tok x0 x1 b i r := by
  have hq : b.val * 64 + i.val < 192 := by have := b.isLt; have := i.isLt; omega
  unfold embed
  refine (shapeCast_apply _ _ (ix3 b i r) (ix2 (⟨b.val * 64 + i.val, hq⟩ : Fin 192) r) ?_).trans ?_
  · rw [Shape.rowMajor_val_two, Shape.rowMajor_val_three]; rfl
  show Ideal.logistic (FloatOps.matmul dot_S192x128_S128x128_S192x128_1_0_0_1_n_n none _ x1 (constant S192x128 .f32 0x00000000#32) (ix2 _ r)) = Ideal.logistic _
  refine congrArg Ideal.logistic ?_
  refine (Ideal.matmul_constant_zero_apply _ _ _ _ _).trans ?_
  refine (Equiv.sum_comp (contrEquiv1 dot_S192x128_S128x128_S192x128_1_0_0_1_n_n 128 rfl rfl).symm _).symm.trans ?_
  refine Finset.sum_congr rfl fun l _ => ?_
  have el : ∀ v : FVec Ideal S3x64x128 .f32, log (addf (absf v) (broadcast S3x64x128 (Scalar.ofBits (F := Ideal) .f32 0x3F800000#32))) (ix3 b i l)
      = lognorm (v (ix3 b i l)) := fun _ => rfl
  refine congrArg₂ (· * ·) ?_ ?_
  · refine (shapeCast_apply _ _ _ (ix3 b i l) ?_).trans ?_
    · rw [Shape.rowMajor_val_two, Shape.rowMajor_val_three, lhs_0, lhs_1]; rfl
    · refine (el _).trans ?_
      rw [shapeCast_self]
  · refine congrArg x1 (funext fun a => Fin.ext ?_)
    match a with
    | ⟨0, _⟩ => exact rhs_0 _ l
    | ⟨1, _⟩ => exact rhs_1 _ _

/-! ## The distances at a place -/

/-- The sum over the last axis, at a place: the 128 coordinates. -/
theorem sumLast_apply (v : FVec Ideal S3x64x64x128 .f32) (q : S3x64x64.Idx) :
    multiReduction (F := Ideal) .add [3] S3x64x64 v 0x00000000#32 reduces_S3x64x64x128_S3x64x64 (.inl rfl) rfl q
      = ∑ r : Fin 128, v (reduces_S3x64x64x128_S3x64x64.lift q r) :=
  Ideal.multiReduction_add_single v 0x00000000#32 reduces_S3x64x64x128_S3x64x64 (.inl rfl) rfl q

/-- Token i's embedding read along the new axis. -/
theorem rowsOf_apply (p : FVec Ideal S3x64x128 .f32) (b : Fin 3) (i j : Fin 64) (r : Fin 128) :
    rowsOf p (ix4 b i j r) = p (ix3 b i r) := by
  unfold rowsOf
  refine (broadcastTo_apply _ _ (ix4 b i j r) (ix4 b i (0 : Fin 1) r) fun a => ?_).trans ?_
  · match a with
    | ⟨0, _⟩ => rfl
    | ⟨1, _⟩ => rfl
    | ⟨2, _⟩ => rfl
    | ⟨3, _⟩ => rfl
  · refine shapeCast_apply _ _ _ (ix3 b i r) ?_
    rw [Shape.rowMajor_val_three, Shape.rowMajor_val_four]
    show (b.val * 64 + i.val) * 128 + r.val = ((b.val * 64 + i.val) * 1 + 0) * 128 + r.val
    omega

/-- Token j's embedding read along the new axis. -/
theorem colsOf_apply (p : FVec Ideal S3x64x128 .f32) (b : Fin 3) (i j : Fin 64) (r : Fin 128) :
    colsOf p (ix4 b i j r) = p (ix3 b j r) := by
  unfold colsOf
  refine (broadcastTo_apply _ _ (ix4 b i j r) (ix4 b (0 : Fin 1) j r) fun a => ?_).trans ?_
  · match a with
    | ⟨0, _⟩ => rfl
    | ⟨1, _⟩ => rfl
    | ⟨2, _⟩ => rfl
    | ⟨3, _⟩ => rfl
  · refine shapeCast_apply _ _ _ (ix3 b j r) ?_
    rw [Shape.rowMajor_val_three, Shape.rowMajor_val_four]
    show (b.val * 64 + j.val) * 128 + r.val = ((b.val * 1 + 0) * 64 + j.val) * 128 + r.val
    omega

/-- The flat block of distances at the place (b * 64 + i) * 64 + j: the distance of rows (b, i) and (b, j) of the
    embeddings, in the difference form. -/
theorem dist_apply (p : FVec Ideal S3x64x128 .f32) (b : Fin 3) (i j : Fin 64) (f : Fin 12288)
    (hf : f.val = (b.val * 64 + i.val) * 64 + j.val) :
    dist p (ix3 (0 : Fin 1) (0 : Fin 1) f) = diffDist (fun r => p (ix3 b i r)) (fun r => p (ix3 b j r)) := by
  unfold dist
  refine (shapeCast_apply _ _ _ (ix3 b i j) ?_).trans ?_
  · rw [Shape.rowMajor_val_three, Shape.rowMajor_val_three]
    show (b.val * 64 + i.val) * 64 + j.val = (0 * 1 + 0) * 12288 + f.val
    omega
  show FloatOps.sqrt (F := Ideal) (φ := .f32) (multiReduction (F := Ideal) .add [3] S3x64x64 _ 0x00000000#32 reduces_S3x64x64x128_S3x64x64 (.inl rfl) rfl (ix3 b i j)) = diffDist _ _
  unfold diffDist
  refine congrArg (FloatOps.sqrt (F := Ideal) (φ := .f32)) ?_
  refine (sumLast_apply _ _).trans ?_
  refine Finset.sum_congr rfl fun r _ => ?_
  have hl : reduces_S3x64x64x128_S3x64x64.lift (ix3 b i j) r = ix4 b i j r := by
    funext a
    match a with
    | ⟨0, _⟩ => rfl
    | ⟨1, _⟩ => rfl
    | ⟨2, _⟩ => rfl
    | ⟨3, _⟩ => rfl
  rw [hl]
  show (rowsOf p (ix4 b i j r) - colsOf p (ix4 b i j r)) * (rowsOf p (ix4 b i j r) - colsOf p (ix4 b i j r)) = _
  rw [rowsOf_apply, colsOf_apply]

/-! ## The payload at a place -/

/-- THE PAYLOAD AT A PLACE: the place (b * 64 + i) * 64 + j of what the kernel stores is the difference-form distance of
    tokens i and j of sentence b of its block. -/
theorem pay_apply (x0 : Vec Ideal S3x64x128 .f32) (x1 : Vec Ideal S128x128 .f32) (b : Fin 3) (i j : Fin 64) (f : Fin 12288)
    (hf : f.val = (b.val * 64 + i.val) * 64 + j.val) :
    k0_pay1 (F := Ideal) x0 x1 (ix3 (0 : Fin 1) (0 : Fin 1) f) = diffDist (tok x0 x1 b i) (tok x0 x1 b j) := by
  rw [pay_eq]
  refine (dist_apply _ b i j f hf).trans ?_
  exact congrArg₂ diffDist (funext fun r => embed_apply x0 x1 b i r) (funext fun r => embed_apply x0 x1 b j r)

end Cert.ReferenceIdeal.DistPayload

end
-- ==== Proof.RVal.lean ====
/-
  What the program with the difference-form kernel leaves in its result: entry (b, i, j) is the difference-form
  distance of tokens i and j of sentence b.

  The sentences are first padded by two sentences of zeros, to 1026 = 342 · 3. The launch runs over 342 points.
  Point t reads sentences 3 t, 3 t + 1, 3 t + 2 of the padded array and the whole weights, and writes row t of the
  [342, 1, 12288] array: place (b · 64 + i) · 64 + j of that row is the distance of tokens i and j of sentence
  3 t + b. The 342 rows tile the array. Read row-major as [1026, 64, 64], entry (s, i, j) is then the distance of
  tokens i and j of padded sentence s; the slice keeps the sentences below 1024, where the padded array is the
  argument itself.
-/
import proofs.«164402_g2000303751998475_pallasbulk_1269_17_alg».proof.Proof.Gen.ReferenceIdeal.Frame
import proofs.«164402_g2000303751998475_pallasbulk_1269_17_alg».proof.Proof.Spec
import proofs.«164402_g2000303751998475_pallasbulk_1269_17_alg».proof.Proof.RPay
import Idealize.ShloMosaic.Lib.Pipeline.Value
import Idealize.ShloMosaic.Lib.StableHlo.Run
import Idealize.ShloMosaic.Lib.KernelVsHost
import Idealize.ShloMosaic.Lib.ValueIdx

set_option maxRecDepth 16384

noncomputable section

open scoped BigOperators

namespace Cert.ReferenceIdeal.DistValue

open Idealize.ShloMosaic Idealize.ShloMosaic.TcCoe Idealize.ShloMosaic.ValueIdx Idealize.SL.Sem
open Cert.ReferenceIdeal Cert.ReferenceIdeal.Gen Cert.TokenDist

variable (m : (ℓ : Loc nD τ sig) → Buf (Elt Ideal) ℓ) (ρ : Dev nD → PrngReg)

/-- A token's embedding depends only on the token's own features and on the weights: two arrays of sentences that
    agree on one token's features give it one embedding. -/
theorem tok_congr {n n' : Nat} (X : (⟨3, ![n, 64, 128]⟩ : Shape).Idx → EReal) (X' : (⟨3, ![n', 64, 128]⟩ : Shape).Idx → EReal)
    (W W' : (⟨2, ![128, 128]⟩ : Shape).Idx → EReal) (b : Fin n) (b' : Fin n') (i : Fin 64)
    (hX : ∀ l : Fin 128, X (ix3 b i l) = X' (ix3 b' i l)) (hW : ∀ (l r : Fin 128), W (ix2 l r) = W' (ix2 l r)) :
    tok X W b i = tok X' W' b' i := by
  funext r
  unfold tok
  exact congrArg Ideal.logistic (Finset.sum_congr rfl fun l _ => by rw [hX l, hW l r])

/-- The padded sentence a place of the launch's array speaks of: row t, place f is sentence 3 t + f / 4096. -/
def sentOf (y : S342x1x12288.Idx) : Fin 1026 :=
  ⟨(y 0).val * 3 + (y 2).val / 4096, by have h0 : (y 0).val < 342 := (y 0).isLt; have h2 : (y 2).val < 12288 := (y 2).isLt; omega⟩
/-- Its first token, (f / 64) mod 64, -/
def rowOf (y : S342x1x12288.Idx) : Fin 64 := ⟨(y 2).val / 64 % 64, Nat.mod_lt _ (by decide)⟩
/-- and its second, f mod 64. -/
def colOf (y : S342x1x12288.Idx) : Fin 64 := ⟨(y 2).val % 64, Nat.mod_lt _ (by decide)⟩

/-- The launch's own array, over the padded sentences. -/
def arr (Xp : S1026x64x128.Idx → EReal) (W : S128x128.Idx → EReal) : S342x1x12288.Idx → EReal :=
  fun y => diffDist (tok Xp W (sentOf y) (rowOf y)) (tok Xp W (sentOf y) (colOf y))

theorem hz3 : (![0, 0, 0] : Fin 3 → Nat) = fun _ => 0 := funext fun a => by fin_cases a <;> rfl
theorem hz2 : (![0, 0] : Fin 2 → Nat) = fun _ => 0 := funext fun a => by fin_cases a <;> rfl

/-- The block indices at point t: the sentences' window and the result's window move with t along their first axis,
    the weights' window stays. -/
theorem idx_facts : ∀ t : Fin cfg0.N, win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem lt342 (t : Fin cfg0.N) : t.val < 342 := by
  have h : t.val < cfg0.N := t.isLt
  have hN : cfg0.N = 342 := N_0
  omega

/-- Point t as a row of the launch's array. -/
def rowT (t : Fin cfg0.N) : Fin 342 := ⟨t.val, lt342 t⟩

/-- Sentence b of point t's block is padded sentence 3 t + b. -/
def sent (t : Fin cfg0.N) (b : Fin 3) : Fin 1026 := ⟨t.val * 3 + b.val, by have := lt342 t; have := b.isLt; omega⟩

/-- WHAT POINT t WRITES BACK is row t of `arr` of the arrays as the launch finds them. -/
theorem flushed_eq (c : Dev nD) (t : Fin cfg0.N) :
    (dats m 0 c).flushed 2 t = ((cfg0.win 2).blk t).view.read (Elt Ideal) (arr (V m c main_v0) (V m c main_arg1)) := by
  show (cfg0.win 2).cut (grid0.coords t) ((dats m 0 c).after 2 t) = _
  rw [after0_2]
  unfold out0_2
  rw [View.canon_unit_zero hz3]
  simp only [View.ld_unit_zero (S := S3x64x128) hz3, View.ld_unit_zero (S := S128x128) hz2]
  obtain ⟨e00, e01, e02, e10, e11, e20, e21, e22⟩ := idx_facts t
  funext y
  obtain ⟨z0, z1, f, rfl⟩ : ∃ (z0 : Fin 1) (z1 : Fin 1) (f : Fin 12288), y = ix3 z0 z1 f := ⟨y 0, y 1, y 2, eq_ix3 y⟩
  obtain rfl : z0 = 0 := Subsingleton.elim _ _
  obtain rfl : z1 = 0 := Subsingleton.elim _ _
  have hf : f.val < 12288 := f.isLt
  let b : Fin 3 := ⟨f.val / 4096, by omega⟩
  let i : Fin 64 := ⟨f.val / 64 % 64, Nat.mod_lt _ (by decide)⟩
  let j : Fin 64 := ⟨f.val % 64, Nat.mod_lt _ (by decide)⟩
  have hfb : f.val = (b.val * 64 + i.val) * 64 + j.val := by
    show f.val = (f.val / 4096 * 64 + f.val / 64 % 64) * 64 + f.val % 64
    omega
  show k0_pay1 (F := Ideal) (iblk m c 0 t) (iblk m c 1 t) (ix3 (0 : Fin 1) (0 : Fin 1) f)
    = arr (V m c main_v0) (V m c main_arg1) (((cfg0.win 2).blk t).view.emb (ix3 (0 : Fin 1) (0 : Fin 1) f))
  refine (DistPayload.pay_apply (iblk m c 0 t) (iblk m c 1 t) b i j f hfb).trans ?_
  have hemb : ((cfg0.win 2).blk t).view.emb (ix3 (0 : Fin 1) (0 : Fin 1) f) = ix3 (rowT t) (0 : Fin 1) f := by
    funext a; apply Fin.ext
    match a with
    | ⟨0, _⟩ => show win0_2.index t (0 : Fin 3) * 1 + 1 * 0 = t.val; omega
    | ⟨1, _⟩ => show win0_2.index t (1 : Fin 3) * 1 + 1 * 0 = 0; omega
    | ⟨2, _⟩ => show win0_2.index t (2 : Fin 3) * 12288 + 1 * f.val = f.val; omega
  rw [hemb]
  show diffDist _ _ = diffDist (tok (V m c main_v0) (V m c main_arg1) (sent t b) i) (tok (V m c main_v0) (V m c main_arg1) (sent t b) j)
  have hX : ∀ (i' : Fin 64) (l : Fin 128), iblk m c 0 t (ix3 b i' l) = V m c main_v0 (ix3 (sent t b) i' l) := by
    intro i' l
    show V m c main_v0 (((cfg0.win 0).blk t).view.emb (ix3 b i' l)) = V m c main_v0 (ix3 (sent t b) i' l)
    refine congrArg (V m c main_v0) ?_
    funext a; apply Fin.ext
    match a with
    | ⟨0, _⟩ => show win0_0.index t (0 : Fin 3) * 3 + 1 * b.val = t.val * 3 + b.val; omega
    | ⟨1, _⟩ => show win0_0.index t (1 : Fin 3) * 64 + 1 * i'.val = i'.val; omega
    | ⟨2, _⟩ => show win0_0.index t (2 : Fin 3) * 128 + 1 * l.val = l.val; omega
  have hW : ∀ (l r : Fin 128), iblk m c 1 t (ix2 l r) = V m c main_arg1 (ix2 l r) := by
    intro l r
    show V m c main_arg1 (((cfg0.win 1).blk t).view.emb (ix2 l r)) = V m c main_arg1 (ix2 l r)
    refine congrArg (V m c main_arg1) ?_
    funext a; apply Fin.ext
    match a with
    | ⟨0, _⟩ => show win0_1.index t (0 : Fin 2) * 128 + 1 * l.val = l.val; omega
    | ⟨1, _⟩ => show win0_1.index t (1 : Fin 2) * 128 + 1 * r.val = r.val; omega
  exact congrArg₂ diffDist (tok_congr _ _ _ _ b (sent t b) i (hX i) hW) (tok_congr _ _ _ _ b (sent t b) j (hX j) hW)

/-- An index of the array is in point t's row iff each coordinate is in the row's range on its axis. -/
theorem mem_blk (t : Fin cfg0.N) (y : S342x1x12288.Idx) :
    y ∈ ((cfg0.win 2).blk t).view.set ↔ ∀ a : Fin 3, win0_2.index t a * S1x1x12288.size a ≤ (y a).val
      ∧ (y a).val < win0_2.index t a * S1x1x12288.size a + S1x1x12288.size a := by
  show y ∈ ((View.whole main_v1).slice (win0_2.rect t)).set ↔ _
  rw [View.set_slice_whole, Rect.mem_set_unit]
  exact Iff.rfl

/-- The 342 rows cover the array. -/
theorem cover (y : S342x1x12288.Idx) : ∃ t : Fin cfg0.N, (cfg0.win 2).flush t = true ∧ y ∈ ((cfg0.win 2).blk t).view.set := by
  have h0 : (y 0).val < 342 := (y 0).isLt
  have h1 : (y 1).val < 1 := (y 1).isLt
  have h2 : (y 2).val < 12288 := (y 2).isLt
  let t : Fin cfg0.N := ⟨(y 0).val, by have hN : cfg0.N = 342 := N_0; omega⟩
  obtain ⟨-, -, -, -, -, e20, e21, e22⟩ := idx_facts t
  have ht : t.val = (y 0).val := rfl
  refine ⟨t, flush0_2 t, ?_⟩
  rw [mem_blk]
  intro a
  match a with
  | ⟨0, _⟩ => show win0_2.index t (0 : Fin 3) * 1 ≤ (y 0).val ∧ (y 0).val < win0_2.index t (0 : Fin 3) * 1 + 1; omega
  | ⟨1, _⟩ => show win0_2.index t (1 : Fin 3) * 1 ≤ (y 1).val ∧ (y 1).val < win0_2.index t (1 : Fin 3) * 1 + 1; omega
  | ⟨2, _⟩ => show win0_2.index t (2 : Fin 3) * 12288 ≤ (y 2).val ∧ (y 2).val < win0_2.index t (2 : Fin 3) * 12288 + 12288; omega

/-- THE ARRAY after the launch is `arr` of the padded sentences and the weights. -/
theorem final (c : Dev nD) : (dats m 0 c).arrAt 2 cfg0.N = arr (V m c main_v0) (m ((c.tc : Thread nD τ).loc main_arg1)) := by
  rw [← V_main_arg1 m c]
  exact (dats m 0 c).arrAt_eq_of_cover 2 (arr (V m c main_v0) (V m c main_arg1)) (fun t _ => flushed_eq m c t) cover

/-- The padded array, as the launch finds it, is the argument on the sentences below 1024. -/
theorem padded_apply (c : Dev nD) (b : Fin 1024) (b' : Fin 1026) (hb : b'.val = b.val) (i : Fin 64) (l : Fin 128) :
    V m c main_v0 (ix3 b' i l) = m ((c.tc : Thread nD τ).loc main_arg0) (ix3 b i l) := by
  have e : (V m c main_v0 : S1026x64x128.Idx → EReal)
      = pad S1026x64x128 ![0, 0, 0] ![2, 0, 0] ![0, 0, 0] (m ((c.tc : Thread nD τ).loc main_arg0))
          (sitofp (F := Ideal) .f32 (constantI S_ 32 0#32)) pads_S1024x64x128_S1026x64x128_020_000_000 h_S_ := by
    dsimp only [V, V0]
    simp only [hostOps0, hostOps0_1, List.flatten_cons, List.flatten_nil, List.append_nil, List.cons_append, List.nil_append]
    after_results
    rfl
  refine (congrFun e (ix3 b' i l)).trans ?_
  refine pad_apply_of_inside _ _ _ _ _ _ _ (ix3 b' i l) (ix3 b i l) ?_
  intro a
  match a with
  | ⟨0, _⟩ => show b'.val = 0 + b.val * (0 + 1); omega
  | ⟨1, _⟩ => show i.val = 0 + i.val * (0 + 1); omega
  | ⟨2, _⟩ => show l.val = 0 + l.val * (0 + 1); omega

/-- What the lines after the launch leave in the result. -/
theorem tail_eq (c : Dev nD) : Pipeline.afterTail₀ cfgs (dats m) 0 (V0 m) [hostOps1] c main_v3
    = diffResult (m ((c.tc : Thread nD τ).loc main_arg0)) (m ((c.tc : Thread nD τ).loc main_arg1)) := by
  unfold Pipeline.afterTail₀
  show StableHlo.after hostOps1 _ (Proc.devRef .tc main_v3) = _
  after_results
  rw [Pipeline.withArrays_arr spec0 launch0.win.arr_inj c _ _ 2, final]
  funext idx
  obtain ⟨b, i, j, rfl⟩ : ∃ (b : Fin 1024) (i : Fin 64) (j : Fin 64), idx = ix3 b i j := ⟨idx 0, idx 1, idx 2, eq_ix3 idx⟩
  have hb : b.val < 1024 := b.isLt
  have hi : i.val < 64 := i.isLt
  have hj : j.val < 64 := j.isLt
  -- the slice keeps the index; the reshape keeps the row-major position
  let b' : Fin 1026 := ⟨b.val, by omega⟩
  let q : Fin 342 := ⟨b.val / 3, by omega⟩
  let f : Fin 12288 := ⟨b.val % 3 * 4096 + i.val * 64 + j.val, by omega⟩
  refine (extractStridedSlice_apply _ _ _ (ix3 b i j) (ix3 b' i j) ?_).trans ?_
  · intro a
    match a with
    | ⟨0, _⟩ => show b.val = 0 + b.val; omega
    | ⟨1, _⟩ => show i.val = 0 + i.val; omega
    | ⟨2, _⟩ => show j.val = 0 + j.val; omega
  show shapeCast S1026x64x64 (arr (V m c main_v0) (m ((c.tc : Thread nD τ).loc main_arg1))) shapeCasts_S342x1x12288_S1026x64x64 (ix3 b' i j) = _
  refine (shapeCast_apply _ _ (ix3 b' i j) (ix3 q (0 : Fin 1) f) ?_).trans ?_
  · rw [Shape.rowMajor_val_three, Shape.rowMajor_val_three]
    show (b.val / 3 * 1 + 0) * 12288 + (b.val % 3 * 4096 + i.val * 64 + j.val) = (b.val * 64 + i.val) * 64 + j.val
    omega
  have hs : sentOf (ix3 q (0 : Fin 1) f) = b' := Fin.ext (by
    show b.val / 3 * 3 + (b.val % 3 * 4096 + i.val * 64 + j.val) / 4096 = b.val
    omega)
  have hr : rowOf (ix3 q (0 : Fin 1) f) = i := Fin.ext (by
    show (b.val % 3 * 4096 + i.val * 64 + j.val) / 64 % 64 = i.val
    omega)
  have hc : colOf (ix3 q (0 : Fin 1) f) = j := Fin.ext (by
    show (b.val % 3 * 4096 + i.val * 64 + j.val) % 64 = j.val
    omega)
  show diffDist (tok (V m c main_v0) _ (sentOf (ix3 q (0 : Fin 1) f)) (rowOf (ix3 q (0 : Fin 1) f)))
      (tok (V m c main_v0) _ (sentOf (ix3 q (0 : Fin 1) f)) (colOf (ix3 q (0 : Fin 1) f)))
    = diffDist (tok _ _ b i) (tok _ _ b j)
  rw [hs, hr, hc]
  exact congrArg₂ diffDist
    (tok_congr _ _ _ _ b' b i (fun l => padded_apply m c b b' rfl i l) fun _ _ => rfl)
    (tok_congr _ _ _ _ b' b j (fun l => padded_apply m c b b' rfl j l) fun _ _ => rfl)

theorem run : θ_run (defs (F := Ideal)) (onTc (τ := τ) (main (F := Ideal))) ⟨m, fun _ => 0, ρ⟩ (fun r => ∀ c : Dev nD,
      r.2.mem ((c.tc : Thread nD τ).loc main_v3) = diffResult (m ((c.tc : Thread nD τ).loc main_arg0)) (m ((c.tc : Thread nD τ).loc main_arg1))
      ∧ r.2.mem ((c.tc : Thread nD τ).loc main_arg0) = m ((c.tc : Thread nD τ).loc main_arg0)
      ∧ r.2.mem ((c.tc : Thread nD τ).loc main_arg1) = m ((c.tc : Thread nD τ).loc main_arg1)) :=
  (θ_run defs _ _).mono (fun r h c =>
    ⟨((h c).2 main_v3 (Pipeline.mem_restRefs_of main_v3 (by decide) (by decide))).trans (tail_eq m c),
      ((h c).2 main_arg0 (Pipeline.mem_restRefs_of main_arg0 (by decide) (by decide))).trans (W_main_arg0 m (dats m) c),
      ((h c).1 1).trans (((dats m 0 c).arrAt_in 1 rfl _).trans ((A_eq m c 1).trans (V_main_arg1 m c)))⟩)
    (run_main m ρ)

end Cert.ReferenceIdeal.DistValue

end
-- ==== Proof.lean ====
/-
  The two programs compute, per sentence, the matrix of Euclidean distances between its tokens' embeddings; one writes
  a distance as the root of the summed squared differences, the other through the Gram matrix with a clamp at zero.
  The embeddings are logistics, hence real, and over the reals the two forms are one number (Proof/Spec.lean). Each
  program's result array is read off its run (Proof/KVal.lean, Proof/RVal.lean); here the claims are assembled.
-/
import proofs.«164402_g2000303751998475_pallasbulk_1269_17_alg».proof.Defs
import proofs.«164402_g2000303751998475_pallasbulk_1269_17_alg».proof.Proof.Gen.Kernel
import proofs.«164402_g2000303751998475_pallasbulk_1269_17_alg».proof.Proof.Gen.Kernel.Frame
import proofs.«164402_g2000303751998475_pallasbulk_1269_17_alg».proof.Proof.Gen.KernelIdeal
import proofs.«164402_g2000303751998475_pallasbulk_1269_17_alg».proof.Proof.Gen.KernelIdeal.Frame
import proofs.«164402_g2000303751998475_pallasbulk_1269_17_alg».proof.Proof.Gen.ReferenceIdeal
import proofs.«164402_g2000303751998475_pallasbulk_1269_17_alg».proof.Proof.Gen.ReferenceIdeal.Frame
import proofs.«164402_g2000303751998475_pallasbulk_1269_17_alg».proof.Proof.Gen.Pre_finite_inputs
import proofs.«164402_g2000303751998475_pallasbulk_1269_17_alg».proof.Proof.Spec
import proofs.«164402_g2000303751998475_pallasbulk_1269_17_alg».proof.Proof.KVal
import proofs.«164402_g2000303751998475_pallasbulk_1269_17_alg».proof.Proof.RVal
import Idealize.ShloMosaic.Adequacy
import Idealize.ShloMosaic.Init

noncomputable section

namespace Cert.Proof

open Idealize.ShloMosaic Idealize.SL.Sem

theorem frame_k : Cert.frame_Kernel (hKernel := Cert.Kernel.Gen.facts) (hPre_finite_inputs := Cert.Pre_finite_inputs.Gen.facts) :=
  fun m ρ _ => Cert.Kernel.Gen.frame m ρ

theorem frame_ki : Cert.frame_KernelIdeal (hKernelIdeal := Cert.KernelIdeal.Gen.facts) (hPre_finite_inputs := Cert.Pre_finite_inputs.Gen.facts) :=
  fun m ρ _ => Cert.KernelIdeal.Gen.frame m ρ

theorem frame_ri : Cert.frame_ReferenceIdeal (hReferenceIdeal := Cert.ReferenceIdeal.Gen.facts) (hPre_finite_inputs := Cert.Pre_finite_inputs.Gen.facts) :=
  fun m ρ _ => Cert.ReferenceIdeal.Gen.frame m ρ

/-- Both runs end with the distance matrices of the same arguments, one in each form; the forms are equal. -/
theorem algebraic : Cert.algebraic_KernelIdeal_ReferenceIdeal (hKernelIdeal := Cert.KernelIdeal.Gen.facts)
    (hReferenceIdeal := Cert.ReferenceIdeal.Gen.facts) (hPre_finite_inputs := Cert.Pre_finite_inputs.Gen.facts) := by
  intro m ρ m' ρ' _ hagree
  refine ⟨_, Cert.KernelIdeal.DistValue.run m ρ, ?_⟩
  refine (θ_run Cert.ReferenceIdeal.defs _ _).mono (fun _ h c => ⟨(h c).1.trans ?_, (h c).2⟩)
    (Cert.ReferenceIdeal.DistValue.run m' ρ')
  rw [(hagree c).1, (hagree c).2]
  exact (Cert.TokenDist.gramResult_eq_diffResult _ _).symm

theorem claim : Cert.Claim :=
  ⟨Cert.Kernel.Gen.facts, Cert.KernelIdeal.Gen.facts, Cert.ReferenceIdeal.Gen.facts, Cert.Pre_finite_inputs.Gen.facts,
    frame_k, frame_ki, frame_ri, trivial, algebraic⟩

end Cert.Proof

end
